-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S768x768 : Shape := ⟨2, ![768, 768]⟩
abbrev S768 : Shape := ⟨1, ![768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_arg5 : FVec F S768x768 .f32) (main_arg6 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S8x2048x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_v13 main_v16
-- ==== Kernel.lean ====
abbrev S8x2048x768 : Shape := ⟨3, ![8, 2048, 768]⟩
abbrev S768x768 : Shape := ⟨2, ![768, 768]⟩
abbrev S768 : Shape := ⟨1, ![768]⟩
abbrev S1x2048x768 : Shape := ⟨3, ![1, 2048, 768]⟩
abbrev S1x512x768 : Shape := ⟨3, ![1, 512, 768]⟩
abbrev S2048x768 : Shape := ⟨2, ![2048, 768]⟩
abbrev S1x768 : Shape := ⟨2, ![1, 768]⟩
abbrev S512x768 : Shape := ⟨2, ![512, 768]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S8x2048x768, .f32⟩
  | .local _ .vmem, ⟨0, _⟩ => ⟨S1x2048x768, .f32⟩
  | .local _ .vmem, ⟨1, _⟩ => ⟨S1x2048x768, .f32⟩
  | .local _ .vmem, ⟨2, _⟩ => ⟨S768x768, .f32⟩
  | .local _ .vmem, ⟨3, _⟩ => ⟨S768, .f32⟩
  | .local _ .vmem, ⟨4, _⟩ => ⟨S768x768, .f32⟩
  | .local _ .vmem, ⟨5, _⟩ => ⟨S768, .f32⟩
  | .local _ .vmem, ⟨6, _⟩ => ⟨S768x768, .f32⟩
  | .local _ .vmem, ⟨7, _⟩ => ⟨S768, .f32⟩
  | .local _ .vmem, ⟨8, _⟩ => ⟨S1x512x768, .f32⟩
  | .local _ .vmem, ⟨9, _⟩ => ⟨S1x512x768, .f32⟩
  | .local _ .vmem, ⟨10, _⟩ => ⟨S2048x768, .f32⟩
  | .local _ .vmem, ⟨11, _⟩ => ⟨S2048x768, .bf16⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  inb_S768x768_S768x768_0_0 : ∀ a, (![0, 0] : Fin 2 → Nat) a + S768x768.size a ≤ S768x768.size a
  h_S768x768 : 0 < S768x768.numel
  inb_S768_S768_0 : ∀ a, (![0] : Fin 1 → Nat) a + S768.size a ≤ S768.size a
  h_S768 : 0 < S768.numel
  shapeCasts_S768_S1x768 : S768.ShapeCasts S1x768
  broadcasts_S1x768_S2048x768 : S1x768.Broadcasts S2048x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  bitsLt_bf16_f32 : FTy.bits .bf16 < FTy.bits .f32
  packedbf16_S2048x768_S2048x768_0_0 : (Rect.unit (s := S2048x768) ![0, 0] S2048x768.size inb_S2048x768_S2048x768_0_0).PackedRows (EltTy.packing .bf16)
  h_S1x512x768 : 0 < S1x512x768.numel
  shapeCasts_S1x512x768_S512x768 : S1x512x768.ShapeCasts S512x768
  broadcasts_S1x768_S512x768 : S1x768.Broadcasts S512x768
  reduces_S512x2048_S512 : S512x2048.Reduces [1] S512
  shapeCasts_S512_S512x1 : S512.ShapeCasts S512x1
  broadcasts_S512x1_S512x2048 : S512x1.Broadcasts S512x2048
  inb_S1x512x768_S1x512x768_0_0_0 : ∀ a, (![0, 0, 0] : Fin 3 → Nat) a + S1x512x768.size a ≤ S1x512x768.size a
  shapeCasts_S512x768_S1x512x768 : S512x768.ShapeCasts S1x512x768
  dot_S2048x768_S768x768_S2048x768_1_0_0_1_n_n_wf : DotDims.WF S2048x768 S768x768 S2048x768 [1] [0] [0] [1] [] []
  dot_S512x768_S768x768_S512x768_1_0_0_1_n_n_wf : DotDims.WF S512x768 S768x768 S512x768 [1] [0] [0] [1] [] []
  dot_S512x768_S2048x768_S512x2048_1_1_0_0_n_n_wf : DotDims.WF S512x768 S2048x768 S512x2048 [1] [1] [0] [0] [] []
  dot_S512x2048_S2048x768_S512x768_1_0_0_1_n_n_wf : DotDims.WF S512x2048 S2048x768 S512x768 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x768.size a ≤ S1x2048x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x768.size a ≤ S8x2048x768.size a
  hwx0_0 : ∀ i : grid0.Coords, EltTy.bits .f32 = 32 ∨ (Rect.block (s := S8x2048x768) S1x2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .f32 = 32 ∨ (Rect.block (s := S768x768) S768x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .f32 = 32 ∨ (Rect.block (s := S768x768) S768x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768.size a ≤ S768.size a
  hwx0_6 : ∀ i : grid0.Coords, EltTy.bits .f32 = 32 ∨ (Rect.block (s := S768) S768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x768.size a ≤ S8x2048x768.size a
  hwx0_7 : ∀ i : grid0.Coords, EltTy.bits .f32 = 32 ∨ (Rect.block (s := S8x2048x768) S1x512x768.size (cc0_transform_7 i) (hinb0_7 i)).WholeWords (EltTy.packing .f32)

variable [Facts₀]

def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x768_S2048x768_S512x2048_1_1_0_0_n_n : DotDims S512x768 S2048x768 S512x2048 where
  lhsContracting := [1]
  rhsContracting := [1]
  lhsNonContracting := [0]
  rhsNonContracting := [0]
  lhsBatch := []
  rhsBatch := []
  wf := dot_S512x768_S2048x768_S512x2048_1_1_0_0_n_n_wf
def dot_S512x2048_S2048x768_S512x768_1_0_0_1_n_n : DotDims S512x2048 S2048x768 S512x768 where
  lhsContracting := [1]
  rhsContracting := [0]
  lhsNonContracting := [0]
  rhsNonContracting := [1]
  lhsBatch := []
  rhsBatch := []
  wf := dot_S512x2048_S2048x768_S512x768_1_0_0_1_n_n_wf

abbrev win0_0 : Pipeline.Window sig grid0 :=
  Pipeline.Window.ofSpec (Memref.whole main_arg0) S1x2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x512x768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2048x768 : Shape := ⟨3, ![8, 2048, 768]⟩
abbrev S768x768 : Shape := ⟨2, ![768, 768]⟩
abbrev S768 : Shape := ⟨1, ![768]⟩
abbrev S1x1x768 : Shape := ⟨3, ![1, 1, 768]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S8x2048x768, .f32⟩
  | .hbm, ⟨8, _⟩ => ⟨S1x1x768, .f32⟩
  | .hbm, ⟨9, _⟩ => ⟨S8x2048x768, .f32⟩
  | .hbm, ⟨10, _⟩ => ⟨S8x2048x768, .f32⟩
  | .hbm, ⟨11, _⟩ => ⟨S8x2048x768, .f32⟩
  | .hbm, ⟨12, _⟩ => ⟨S1x1x768, .f32⟩
  | .hbm, ⟨13, _⟩ => ⟨S8x2048x768, .f32⟩
  | .hbm, ⟨14, _⟩ => ⟨S8x2048x768, .f32⟩
  | .hbm, ⟨15, _⟩ => ⟨S8x2048x768, .f32⟩
  | .hbm, ⟨16, _⟩ => ⟨S1x1x768, .f32⟩
  | .hbm, ⟨17, _⟩ => ⟨S8x2048x768, .f32⟩
  | .hbm, ⟨18, _⟩ => ⟨S8x2048x768, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x768, .f32⟩
  | .hbm, ⟨35, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x768_S768x768_S8x2048x768_2_0_01_1_n_n_wf : DotDims.WF S8x2048x768 S768x768 S8x2048x768 [2] [0] [0, 1] [1] [] []
  dot_S8x2048x768_S8x2048x768_S8x2048x2048_2_2_1_1_0_0_wf : DotDims.WF S8x2048x768 S8x2048x768 S8x2048x2048 [2] [2] [1] [1] [0] [0]
  dot_S8x2048x2048_S8x2048x768_S8x2048x768_2_1_1_2_0_0_wf : DotDims.WF S8x2048x2048 S8x2048x768 S8x2048x768 [2] [1] [1] [2] [0] [0]

variable [Facts₀]

def dot_S8x2048x768_S768x768_S8x2048x768_2_0_01_1_n_n : DotDims S8x2048x768 S768x768 S8x2048x768 where
  lhsContracting := [2]
  rhsContracting := [0]
  lhsNonContracting := [0, 1]
  rhsNonContracting := [1]
  lhsBatch := []
  rhsBatch := []
  wf := dot_S8x2048x768_S768x768_S8x2048x768_2_0_01_1_n_n_wf
def dot_S8x2048x768_S8x2048x768_S8x2048x2048_2_2_1_1_0_0 : DotDims S8x2048x768 S8x2048x768 S8x2048x2048 where
  lhsContracting := [2]
  rhsContracting := [2]
  lhsNonContracting := [1]
  rhsNonContracting := [1]
  lhsBatch := [0]
  rhsBatch := [0]
  wf := dot_S8x2048x768_S8x2048x768_S8x2048x2048_2_2_1_1_0_0_wf
def dot_S8x2048x2048_S8x2048x768_S8x2048x768_2_1_1_2_0_0 : DotDims S8x2048x2048 S8x2048x768 S8x2048x768 where
  lhsContracting := [2]
  rhsContracting := [1]
  lhsNonContracting := [1]
  rhsNonContracting := [2]
  lhsBatch := [0]
  rhsBatch := [0]
  wf := dot_S8x2048x2048_S8x2048x768_S8x2048x768_2_1_1_2_0_0_wf

class Facts : Prop extends Facts₀ where

variable [Facts]
-- ==== Proof.KernelPieces.lean ====
/-
  What each case of the kernel body leaves behind, read back as values (for any float instance).

  At the first query tile of a batch the body stores the key and value projections of the whole batch block into its two
  scratch tables, then reads them back; at every other tile it reads what the tables already hold. Either way the output
  tile is one payload of: the 512 rows of the batch block at the tile's offset, the query weight and bias, and the two
  tables. Each statement below says that the writes a case's run found, read back through the buffer, are that payload.
-/
import proofs.«423413_j37744172597494_3_alg».proof.Proof.Gen.KernelIdeal.Frame
import Idealize.ShloMosaic.Lib.Pipeline.Value
import Idealize.ShloMosaic.Lib.Tactic

set_option maxRecDepth 16384

noncomputable section

namespace Cert.KernelPieces

open Cert.KernelIdeal Cert.KernelIdeal.Gen Idealize.ShloMosaic Idealize.ShloMosaic.TcCoe Idealize.SL.Sem Idealize.ShloMosaic.Tactic

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The 512 rows of a batch block that the body loads at grid point `i`: the block read through the rectangle at the
    tile's row offset. -/
abbrev tile (i : grid0.Coords) (x0 : Vec F S1x2048x768 .f32) : Vec F S1x512x768 .f32 :=
  View.ld x0 (Rect.unit (k0_off1 i) S1x512x768.size (k0_off1_inb i))

/-- First tile of a batch: the key table is left at the key projection of the batch block. -/
theorem keys_piece (c : Dev nD) (i : grid0.Coords) (arg2 : Memref sig .tc .vmem S1x2048x768 .f32) (harg2 : arg2.IsWhole) (arg3 : Memref sig .tc .vmem S768x768 .f32) (harg3 : arg3.IsWhole) (arg4 : Memref sig .tc .vmem S768 .f32) (harg4 : arg4.IsWhole) (arg5 : Memref sig .tc .vmem S768x768 .f32) (harg5 : arg5.IsWhole) (arg6 : Memref sig .tc .vmem S768 .f32) (harg6 : arg6.IsWhole) (arg7 : Memref sig .tc .vmem S768x768 .f32) (harg7 : arg7.IsWhole) (arg8 : Memref sig .tc .vmem S768 .f32) (harg8 : arg8.IsWhole) (arg9 : Memref sig .tc .vmem S1x512x768 .f32) (harg9 : arg9.IsWhole) (arg10 : Memref sig .tc .vmem S2048x768 .f32) (harg10 : arg10.IsWhole) (arg11 : Memref sig .tc .vmem S2048x768 .bf16) (harg11 : arg11.IsWhole) (hc0 : cond0_0 i) (x0 : Vec F S1x2048x768 .f32) (x1 : Vec F S768x768 .f32) (x2 : Vec F S768 .f32) (x3 : Vec F S768x768 .f32) (x4 : Vec F S768 .f32) (x5 : Vec F S768x768 .f32) (x6 : Vec F S768 .f32) :
    sout0_A_0 c i arg2 harg2 arg3 harg3 arg4 harg4 arg5 harg5 arg6 harg6 arg7 harg7 arg8 harg8 arg9 harg9 arg10 harg10 arg11 harg11 hc0 x0 x1 x2 x3 x4 x5 x6 = k0_pay2 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_run_names
  rw [View.canon_unit_zero hz2]
  simp only [View.readAt_eq_ld, harg2.read_unread, harg5.read_unread, harg6.read_unread,
    View.ld_unit_zero (S := S1x2048x768) hz3, View.ld_unit_zero (S := S768x768) hz2, View.ld_unit_zero (S := S768) hz1]

/-- First tile of a batch: the value table is left at the value projection of the batch block. -/
theorem values_piece (c : Dev nD) (i : grid0.Coords) (arg2 : Memref sig .tc .vmem S1x2048x768 .f32) (harg2 : arg2.IsWhole) (arg3 : Memref sig .tc .vmem S768x768 .f32) (harg3 : arg3.IsWhole) (arg4 : Memref sig .tc .vmem S768 .f32) (harg4 : arg4.IsWhole) (arg5 : Memref sig .tc .vmem S768x768 .f32) (harg5 : arg5.IsWhole) (arg6 : Memref sig .tc .vmem S768 .f32) (harg6 : arg6.IsWhole) (arg7 : Memref sig .tc .vmem S768x768 .f32) (harg7 : arg7.IsWhole) (arg8 : Memref sig .tc .vmem S768 .f32) (harg8 : arg8.IsWhole) (arg9 : Memref sig .tc .vmem S1x512x768 .f32) (harg9 : arg9.IsWhole) (arg10 : Memref sig .tc .vmem S2048x768 .f32) (harg10 : arg10.IsWhole) (arg11 : Memref sig .tc .vmem S2048x768 .bf16) (harg11 : arg11.IsWhole) (hc0 : cond0_0 i) (x0 : Vec F S1x2048x768 .f32) (x1 : Vec F S768x768 .f32) (x2 : Vec F S768 .f32) (x3 : Vec F S768x768 .f32) (x4 : Vec F S768 .f32) (x5 : Vec F S768x768 .f32) (x6 : Vec F S768 .f32) :
    sout0_A_1 c i arg2 harg2 arg3 harg3 arg4 harg4 arg5 harg5 arg6 harg6 arg7 harg7 arg8 harg8 arg9 harg9 arg10 harg10 arg11 harg11 hc0 x0 x1 x2 x3 x4 x5 x6 = k0_pay3 x0 x5 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_run_names
  rw [View.canon_unit_zero hz2]
  simp only [View.readAt_eq_ld, harg2.read_unread, harg7.read_unread, harg8.read_unread,
    View.ld_unit_zero (S := S1x2048x768) hz3, View.ld_unit_zero (S := S768x768) hz2, View.ld_unit_zero (S := S768) hz1]

/-- First tile of a batch: the output tile is the payload of the tile's rows and the two tables just stored. -/
theorem tileA_piece (c : Dev nD) (i : grid0.Coords) (arg2 : Memref sig .tc .vmem S1x2048x768 .f32) (harg2 : arg2.IsWhole) (arg3 : Memref sig .tc .vmem S768x768 .f32) (harg3 : arg3.IsWhole) (arg4 : Memref sig .tc .vmem S768 .f32) (harg4 : arg4.IsWhole) (arg5 : Memref sig .tc .vmem S768x768 .f32) (harg5 : arg5.IsWhole) (arg6 : Memref sig .tc .vmem S768 .f32) (harg6 : arg6.IsWhole) (arg7 : Memref sig .tc .vmem S768x768 .f32) (harg7 : arg7.IsWhole) (arg8 : Memref sig .tc .vmem S768 .f32) (harg8 : arg8.IsWhole) (arg9 : Memref sig .tc .vmem S1x512x768 .f32) (harg9 : arg9.IsWhole) (arg10 : Memref sig .tc .vmem S2048x768 .f32) (harg10 : arg10.IsWhole) (arg11 : Memref sig .tc .vmem S2048x768 .bf16) (harg11 : arg11.IsWhole) (hc0 : cond0_0 i) (x0 : Vec F S1x2048x768 .f32) (x1 : Vec F S768x768 .f32) (x2 : Vec F S768 .f32) (x3 : Vec F S768x768 .f32) (x4 : Vec F S768 .f32) (x5 : Vec F S768x768 .f32) (x6 : Vec F S768 .f32) :
    out0_A_7 c i arg2 harg2 arg3 harg3 arg4 harg4 arg5 harg5 arg6 harg6 arg7 harg7 arg8 harg8 arg9 harg9 arg10 harg10 arg11 harg11 hc0 x0 x1 x2 x3 x4 x5 x6
      = k0_pay4 (tile i x0) x1 x2 (k0_pay2 x0 x3 x4) (k0_pay3 x0 x5 x6) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_run_names
  rw [View.canon_unit_zero hz3]
  simp only [View.readAt_eq_ld, harg2.read_unread, harg3.read_unread, harg4.read_unread, harg5.read_unread,
    harg6.read_unread, harg7.read_unread, harg8.read_unread,
    View.readCov_unit_zero (S := S2048x768) _ hz2,
    View.ld_unit_zero (S := S1x2048x768) hz3, View.ld_unit_zero (S := S768x768) hz2, View.ld_unit_zero (S := S768) hz1]

/-- Any other tile: the output tile is the same payload of the tile's rows and what the two tables hold. -/
theorem tileB_piece (c : Dev nD) (i : grid0.Coords) (arg2 : Memref sig .tc .vmem S1x2048x768 .f32) (harg2 : arg2.IsWhole) (arg3 : Memref sig .tc .vmem S768x768 .f32) (harg3 : arg3.IsWhole) (arg4 : Memref sig .tc .vmem S768 .f32) (harg4 : arg4.IsWhole) (arg5 : Memref sig .tc .vmem S768x768 .f32) (harg5 : arg5.IsWhole) (arg6 : Memref sig .tc .vmem S768 .f32) (harg6 : arg6.IsWhole) (arg7 : Memref sig .tc .vmem S768x768 .f32) (harg7 : arg7.IsWhole) (arg8 : Memref sig .tc .vmem S768 .f32) (harg8 : arg8.IsWhole) (arg9 : Memref sig .tc .vmem S1x512x768 .f32) (harg9 : arg9.IsWhole) (arg10 : Memref sig .tc .vmem S2048x768 .f32) (harg10 : arg10.IsWhole) (arg11 : Memref sig .tc .vmem S2048x768 .bf16) (harg11 : arg11.IsWhole) (hc0 : ¬cond0_0 i) (x0 : Vec F S1x2048x768 .f32) (x1 : Vec F S768x768 .f32) (x2 : Vec F S768 .f32) (x3 : Vec F S768x768 .f32) (x4 : Vec F S768 .f32) (x5 : Vec F S768x768 .f32) (x6 : Vec F S768 .f32) (xs0 : Vec F S2048x768 .f32) (xs1 : Vec F S2048x768 .bf16) :
    out0_B_7 c i arg2 harg2 arg3 harg3 arg4 harg4 arg5 harg5 arg6 harg6 arg7 harg7 arg8 harg8 arg9 harg9 arg10 harg10 arg11 harg11 hc0 x0 x1 x2 x3 x4 x5 x6 xs0 xs1 = k0_pay4 (tile i x0) x1 x2 xs0 xs1 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xs0 xs1)]
  unfold kernelRun0_B
  dsimp only
  sl_unfold_run_names
  rw [View.canon_unit_zero hz3]
  simp only [View.readAt_eq_ld, harg2.read_unread, harg3.read_unread, harg4.read_unread, harg10.read_unread,
    harg11.read_unread, View.ld_unit_zero (S := S2048x768) hz2,
    View.ld_unit_zero (S := S768x768) hz2, View.ld_unit_zero (S := S768) hz1]

end Cert.KernelPieces

end
-- ==== Proof.KernelBlocks.lean ====
/-
  Where each window's block sits in its array. The grid has 8 batches times 4 query tiles, point `t` being batch `t / 4`,
  tile `t % 4`. The input block is the whole batch `t / 4` of the input array; the six weight and bias windows are their
  whole arrays at every point; the tile of rows the body loads starts at row `512 * (t % 4)` of the batch block; and the
  output block is rows `512 * (t % 4) …` of batch `t / 4` of the result array.
-/
import proofs.«423413_j37744172597494_3_alg».proof.Proof.KernelPieces
import Idealize.ShloMosaic.Lib.ValueIdx

set_option maxRecDepth 16384

noncomputable section

namespace Cert.KernelBlocks

open Cert.KernelIdeal Cert.KernelIdeal.Gen Cert.KernelPieces Idealize.ShloMosaic Idealize.ShloMosaic.TcCoe Idealize.SL.Sem
open Idealize.ShloMosaic.ValueIdx

variable {F : FTy → Type} [FloatOps F]
variable (m : (ℓ : Loc nD τ sig) → Buf (Elt F) ℓ)

theorem N_eq : cfg0.N = 32 := N_0

/-- The batch a grid point works on, its query tile, and a tile row's position in the batch. -/
def batchOf (t : Fin cfg0.N) : Fin 8 := ⟨t.val / 4, by have := lt_of_lt_of_eq t.isLt N_eq; omega⟩
def tileOf (t : Fin cfg0.N) : Fin 4 := ⟨t.val % 4, by omega⟩
def rowOf (q : Fin 4) (r : Fin 512) : Fin 2048 := ⟨512 * q.val + r.val, by have := q.isLt; have := r.isLt; omega⟩

/-- The argument arrays as the region finds them, and the blocks at a point, at their literal types. -/
abbrev xArr (c : Dev nD) : Vec F S8x2048x768 .f32 := V m c main_arg0
abbrev wqArr (c : Dev nD) : Vec F S768x768 .f32 := V m c main_arg1
abbrev bqArr (c : Dev nD) : Vec F S768 .f32 := V m c main_arg2
abbrev wkArr (c : Dev nD) : Vec F S768x768 .f32 := V m c main_arg3
abbrev bkArr (c : Dev nD) : Vec F S768 .f32 := V m c main_arg4
abbrev wvArr (c : Dev nD) : Vec F S768x768 .f32 := V m c main_arg5
abbrev bvArr (c : Dev nD) : Vec F S768 .f32 := V m c main_arg6
abbrev xBlk (c : Dev nD) (t : Fin cfg0.N) : Vec F S1x2048x768 .f32 := iblk m c 0 t
abbrev wqBlk (c : Dev nD) (t : Fin cfg0.N) : Vec F S768x768 .f32 := iblk m c 1 t
abbrev bqBlk (c : Dev nD) (t : Fin cfg0.N) : Vec F S768 .f32 := iblk m c 2 t
abbrev wkBlk (c : Dev nD) (t : Fin cfg0.N) : Vec F S768x768 .f32 := iblk m c 3 t
abbrev bkBlk (c : Dev nD) (t : Fin cfg0.N) : Vec F S768 .f32 := iblk m c 4 t
abbrev wvBlk (c : Dev nD) (t : Fin cfg0.N) : Vec F S768x768 .f32 := iblk m c 5 t
abbrev bvBlk (c : Dev nD) (t : Fin cfg0.N) : Vec F S768 .f32 := iblk m c 6 t

/-- The printed index maps, decided over the 32 grid points. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 3) = t.val / 4 ∧ win0_7.index t (1 : Fin 3) = t.val % 4 ∧ win0_7.index t (2 : Fin 3) = 0 :=
  (by decide +kernel : ∀ t : Fin grid0.N, _)

/-- The row offset of the tile the body loads, decided over the grid. -/
theorem off_facts : ∀ t : Fin cfg0.N, k0_off1 (grid0.coords t) = ![0, 512 * (t.val % 4), 0] :=
  (by decide +kernel : ∀ t : Fin grid0.N, _)

/-- The input block at point `t` is batch `t / 4` of the input array. -/
theorem xBlk_apply (c : Dev nD) (t : Fin cfg0.N) (u : Fin 1) (s : Fin 2048) (d : Fin 768) :
    xBlk m c t (ix3 u s d) = xArr m c (ix3 (batchOf t) s d) := by
  obtain ⟨e0, e1, e2, -⟩ := idx_facts t
  show V m c main_arg0 (((cfg0.win 0).blk t).view.emb (ix3 u s d)) = V m c main_arg0 (ix3 (batchOf t) s d)
  refine congrArg (V m c main_arg0) (funext fun a => Fin.ext ?_)
  match a with
  | ⟨0, _⟩ => show win0_0.index t (0 : Fin 3) * 1 + 1 * u.val = t.val / 4; have := u.isLt; omega
  | ⟨1, _⟩ => show win0_0.index t (1 : Fin 3) * 2048 + 1 * s.val = s.val; omega
  | ⟨2, _⟩ => show win0_0.index t (2 : Fin 3) * 768 + 1 * d.val = d.val; omega

/-- A weight window's block is its whole array, at every point. -/
theorem wqBlk_eq (c : Dev nD) (t : Fin cfg0.N) : wqBlk m c t = wqArr m c := by
  obtain ⟨-, -, -, e0, e1, -⟩ := idx_facts t
  funext j
  show V m c main_arg1 (((cfg0.win 1).blk t).view.emb j) = V m c main_arg1 j
  refine congrArg (V m c main_arg1) (funext fun a => Fin.ext ?_)
  match a with
  | ⟨0, _⟩ => show win0_1.index t (0 : Fin 2) * 768 + 1 * (j 0).val = (j 0).val; omega
  | ⟨1, _⟩ => show win0_1.index t (1 : Fin 2) * 768 + 1 * (j 1).val = (j 1).val; omega

theorem bqBlk_eq (c : Dev nD) (t : Fin cfg0.N) : bqBlk m c t = bqArr m c := by
  obtain ⟨-, -, -, -, -, e0, -⟩ := idx_facts t
  funext j
  show V m c main_arg2 (((cfg0.win 2).blk t).view.emb j) = V m c main_arg2 j
  refine congrArg (V m c main_arg2) (funext fun a => Fin.ext ?_)
  match a with
  | ⟨0, _⟩ => show win0_2.index t (0 : Fin 1) * 768 + 1 * (j 0).val = (j 0).val; omega

theorem wkBlk_eq (c : Dev nD) (t : Fin cfg0.N) : wkBlk m c t = wkArr m c := by
  obtain ⟨-, -, -, -, -, -, e0, e1, -⟩ := idx_facts t
  funext j
  show V m c main_arg3 (((cfg0.win 3).blk t).view.emb j) = V m c main_arg3 j
  refine congrArg (V m c main_arg3) (funext fun a => Fin.ext ?_)
  match a with
  | ⟨0, _⟩ => show win0_3.index t (0 : Fin 2) * 768 + 1 * (j 0).val = (j 0).val; omega
  | ⟨1, _⟩ => show win0_3.index t (1 : Fin 2) * 768 + 1 * (j 1).val = (j 1).val; omega

theorem bkBlk_eq (c : Dev nD) (t : Fin cfg0.N) : bkBlk m c t = bkArr m c := by
  obtain ⟨-, -, -, -, -, -, -, -, e0, -⟩ := idx_facts t
  funext j
  show V m c main_arg4 (((cfg0.win 4).blk t).view.emb j) = V m c main_arg4 j
  refine congrArg (V m c main_arg4) (funext fun a => Fin.ext ?_)
  match a with
  | ⟨0, _⟩ => show win0_4.index t (0 : Fin 1) * 768 + 1 * (j 0).val = (j 0).val; omega

theorem wvBlk_eq (c : Dev nD) (t : Fin cfg0.N) : wvBlk m c t = wvArr m c := by
  obtain ⟨-, -, -, -, -, -, -, -, -, e0, e1, -⟩ := idx_facts t
  funext j
  show V m c main_arg5 (((cfg0.win 5).blk t).view.emb j) = V m c main_arg5 j
  refine congrArg (V m c main_arg5) (funext fun a => Fin.ext ?_)
  match a with
  | ⟨0, _⟩ => show win0_5.index t (0 : Fin 2) * 768 + 1 * (j 0).val = (j 0).val; omega
  | ⟨1, _⟩ => show win0_5.index t (1 : Fin 2) * 768 + 1 * (j 1).val = (j 1).val; omega

theorem bvBlk_eq (c : Dev nD) (t : Fin cfg0.N) : bvBlk m c t = bvArr m c := by
  obtain ⟨-, -, -, -, -, -, -, -, -, -, -, e0, -⟩ := idx_facts t
  funext j
  show V m c main_arg6 (((cfg0.win 6).blk t).view.emb j) = V m c main_arg6 j
  refine congrArg (V m c main_arg6) (funext fun a => Fin.ext ?_)
  match a with
  | ⟨0, _⟩ => show win0_6.index t (0 : Fin 1) * 768 + 1 * (j 0).val = (j 0).val; omega

/-- Row `r` of the tile the body loads at point `t` is row `512 * (t % 4) + r` of the batch block. -/
theorem tile_row (t : Fin cfg0.N) (x0 : Vec F S1x2048x768 .f32) (u : Fin 1) (r : Fin 512) (d : Fin 768) :
    tile (grid0.coords t) x0 (ix3 u r d) = x0 (ix3 (0 : Fin 1) (rowOf (tileOf t) r) d) := by
  have e := off_facts t
  show x0 ((Rect.unit (s := S1x2048x768) (k0_off1 (grid0.coords t)) S1x512x768.size (k0_off1_inb (grid0.coords t))).emb (ix3 u r d)) = _
  refine congrArg x0 (funext fun a => Fin.ext ?_)
  rw [Rect.emb_apply]
  match a with
  | ⟨0, _⟩ => show k0_off1 (grid0.coords t) (0 : Fin 3) + 1 * u.val = 0; rw [e]; have := u.isLt; show 0 + 1 * u.val = 0; omega
  | ⟨1, _⟩ => show k0_off1 (grid0.coords t) (1 : Fin 3) + 1 * r.val = 512 * (t.val % 4) + r.val; rw [e]; show 512 * (t.val % 4) + 1 * r.val = _; omega
  | ⟨2, _⟩ => show k0_off1 (grid0.coords t) (2 : Fin 3) + 1 * d.val = d.val; rw [e]; show 0 + 1 * d.val = d.val; omega

end Cert.KernelBlocks

end
-- ==== Proof.Attention.lean ====
/-
  Self-attention without the 1/sqrt(d) scale, with a residual: the function both programs compute, written once,
  element by element, over the extended reals.

  One query row `q` (768 features) meets a table of 2048 key rows `K` and value rows `V`: the score against key `t` is
  the sum over the features of `q e * K t e`; the row of scores is shifted by its maximum (the fold of `max` from the value
  the -inf word denotes), exponentiated, and divided by the row's sum; the attended row is the sum over `t` of the weight
  times `V t`. In the whole array the query, key and value rows are dense projections of the input,
  `(sum over d of x[n,s,d] * W[d,e]) + b[e]`, and the input itself is added to the attended row.

  Nothing is rearranged between the two programs: each contraction is one sum over the same index set on both sides, so no
  law of the extended reals beyond what the definitions say is needed, and the inputs' finiteness is never used.
-/
import Idealize.ShloMosaic.PureOps.Ideal
import Idealize.ShloMosaic.Lib.ValueIdx
import Mathlib.Data.Finset.Fold

noncomputable section

open scoped BigOperators

namespace Cert.Attention

open Idealize.ShloMosaic Idealize.ShloMosaic.ValueIdx

/-- The input array's shape, a weight's and a bias's. -/
abbrev SX : Shape := ⟨3, ![8, 2048, 768]⟩
abbrev SW : Shape := ⟨2, ![768, 768]⟩
abbrev SB : Shape := ⟨1, ![768]⟩

/-- The value the -inf word denotes: where a row's maximum starts from. -/
abbrev negInf : EReal := Ideal.ofBits .f32 0xFF800000#32

/-! ## One query row against a table of keys and values -/

/-- The score of the query row against key row `t`. -/
def rowScore (q : Fin 768 → EReal) (K : Fin 2048 → Fin 768 → EReal) (t : Fin 2048) : EReal :=
  ∑ e : Fin 768, q e * K t e

/-- The maximum of a row of scores, folded from the -inf word's value. -/
def rowMax (sc : Fin 2048 → EReal) : EReal :=
  (Finset.univ : Finset (Fin 2048)).fold max negInf sc

/-- A score shifted by the row's maximum, exponentiated. -/
def expo (sc : Fin 2048 → EReal) (t : Fin 2048) : EReal := Ideal.exp (sc t - rowMax sc)

/-- The row's normaliser. -/
def denom (sc : Fin 2048 → EReal) : EReal := ∑ t : Fin 2048, expo sc t

/-- The weight of key `t`: the softmax of the row of scores. -/
def weight (sc : Fin 2048 → EReal) (t : Fin 2048) : EReal := Ideal.div (expo sc t) (denom sc)

/-- The attended row at feature `d`: the weighted sum of the value rows. -/
def attend (q : Fin 768 → EReal) (K V : Fin 2048 → Fin 768 → EReal) (d : Fin 768) : EReal :=
  ∑ t : Fin 2048, weight (rowScore q K) t * V t d

/-! ## The whole array -/

variable (x : SX.Idx → EReal) (Wq : SW.Idx → EReal) (bq : SB.Idx → EReal) (Wk : SW.Idx → EReal) (bk : SB.Idx → EReal)
  (Wv : SW.Idx → EReal) (bv : SB.Idx → EReal)

/-- A dense projection at batch `n`, position `s`, feature `e`: the row of `x` against column `e` of `W`, plus the bias. -/
def proj (W : SW.Idx → EReal) (b : SB.Idx → EReal) (n : Fin 8) (s : Fin 2048) (e : Fin 768) : EReal :=
  (∑ d : Fin 768, x (ix3 n s d) * W (ix2 d e)) + b (ix1 e)

/-- The result at batch `n`, position `s`, feature `d`: the query row of position `s` attends to the batch's keys and
    values, and the input is added. -/
def out (n : Fin 8) (s : Fin 2048) (d : Fin 768) : EReal :=
  attend (proj x Wq bq n s) (proj x Wk bk n) (proj x Wv bv n) d + x (ix3 n s d)

/-- The whole result array. -/
def result : SX.Idx → EReal := fun i => out x Wq bq Wk bk Wv bv (i 0) (i 1) (i 2)

theorem result_apply (n : Fin 8) (s : Fin 2048) (d : Fin 768) :
    result x Wq bq Wk bk Wv bv (ix3 n s d) = out x Wq bq Wk bk Wv bv n s d := rfl

/-- A fold of `max` is at least the value it starts from, so taking the maximum with that value again changes nothing. -/
theorem max_init_fold {ι : Type*} (s : Finset ι) (b : EReal) (f : ι → EReal) : max b (s.fold max b f) = s.fold max b f :=
  max_eq_right ((Finset.le_fold_max b).mpr (Or.inl le_rfl))

end Cert.Attention

end
-- ==== Proof.LibKeepdimsColumn.lean ====
/-
  Two layout operations read at an index given by coordinates: the column forms a row reduction with kept dimensions
  meets. A row's maximum or sum comes out as a vector of length `a`; it is cast to an `[a, 1]` column and the column is
  broadcast along the rows of an `[a, b]` array. Read at `(i, u)` the cast is the vector at `i`; read at `(p, c)` the
  broadcast is the column's entry of row `p`. Both hold for any sizes and any element type.
-/
import Idealize.ShloMosaic.Lib.Pipeline.Value
import Idealize.ShloMosaic.Lib.ValueIdx

namespace Cert.LibKeepdimsColumn

open Idealize.ShloMosaic Idealize.ShloMosaic.ValueIdx

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsColumn
-- ==== Proof.KernelPayloads.lean ====
/-
  The kernel body's three stored values, read at an index over the extended reals: the key and value projections of a
  whole batch block, and the output tile as one query row attending to the key and value tables the body reads.
-/
import proofs.«423413_j37744172597494_3_alg».proof.Proof.Gen.KernelIdeal.Skeleton
import proofs.«423413_j37744172597494_3_alg».proof.Proof.Attention
import Idealize.ShloMosaic.Lib.ValueLayout
import proofs.«423413_j37744172597494_3_alg».proof.Proof.LibKeepdimsColumn
import Idealize.ShloMosaic.PureOps.Ideal.Laws

noncomputable section

open scoped BigOperators

namespace Cert.KernelPayloads

open Cert.KernelIdeal Cert.KernelIdeal.Gen Idealize.ShloMosaic Idealize.ShloMosaic.TcCoe Idealize.ShloMosaic.ValueIdx Cert.Attention Cert.LibKeepdimsColumn

/-- A dense projection of one batch block: row `s` of the block against column `e` of the weight, plus the bias. -/
def blockProj (xb : Vec Ideal S1x2048x768 .f32) (W : Vec Ideal S768x768 .f32) (b : Vec Ideal S768 .f32) (s : Fin 2048) (e : Fin 768) : EReal :=
  (∑ d : Fin 768, xb (ix3 (0 : Fin 1) s d) * W (ix2 d e)) + b (ix1 e)

/-- The same for a tile of 512 rows. -/
def tileProj (xt : Vec Ideal S1x512x768 .f32) (W : Vec Ideal S768x768 .f32) (b : Vec Ideal S768 .f32) (r : Fin 512) (e : Fin 768) : EReal :=
  (∑ d : Fin 768, xt (ix3 (0 : Fin 1) r d) * W (ix2 d e)) + b (ix1 e)

/-! ## The four contractions read at an index -/

/-- Axis 0 of the left operand's index, in the contraction `blockW`. -/
theorem lhs_blockW_0 (i : S2048x768.Idx) (q : dot_S2048x768_S768x768_S2048x768_1_0_0_1_n_n.contr.Idx) :
    (dot_S2048x768_S768x768_S2048x768_1_0_0_1_n_n.lhsIdx i q 0).val = (i 0).val := by
  unfold DotDims.lhsIdx
  rw [dif_neg (show ¬(0 : Fin S2048x768.rank) ∈ dot_S2048x768_S768x768_S2048x768_1_0_0_1_n_n.lhsBatch by decide), dif_pos (show (0 : Fin S2048x768.rank) ∈ dot_S2048x768_S768x768_S2048x768_1_0_0_1_n_n.lhsNonContracting by decide)]
  rfl
/-- Axis 1 of the left operand's index, in the contraction `blockW`. -/
theorem lhs_blockW_1 (i : S2048x768.Idx) (q : dot_S2048x768_S768x768_S2048x768_1_0_0_1_n_n.contr.Idx) :
    (dot_S2048x768_S768x768_S2048x768_1_0_0_1_n_n.lhsIdx i q 1).val = (q ⟨0, by decide⟩).val :=
  dot_S2048x768_S768x768_S2048x768_1_0_0_1_n_n.lhsIdx_val_of_single rfl i q
/-- Axis 0 of the right operand's index, in the contraction `blockW`. -/
theorem rhs_blockW_0 (i : S2048x768.Idx) (q : dot_S2048x768_S768x768_S2048x768_1_0_0_1_n_n.contr.Idx) :
    (dot_S2048x768_S768x768_S2048x768_1_0_0_1_n_n.rhsIdx i q 0).val = (q ⟨0, by decide⟩).val :=
  dot_S2048x768_S768x768_S2048x768_1_0_0_1_n_n.rhsIdx_val_of_single rfl i q
/-- Axis 1 of the right operand's index, in the contraction `blockW`. -/
theorem rhs_blockW_1 (i : S2048x768.Idx) (q : dot_S2048x768_S768x768_S2048x768_1_0_0_1_n_n.contr.Idx) :
    (dot_S2048x768_S768x768_S2048x768_1_0_0_1_n_n.rhsIdx i q 1).val = (i 1).val := by
  unfold DotDims.rhsIdx
  rw [dif_neg (show ¬(1 : Fin S768x768.rank) ∈ dot_S2048x768_S768x768_S2048x768_1_0_0_1_n_n.rhsBatch by decide), dif_pos (show (1 : Fin S768x768.rank) ∈ dot_S2048x768_S768x768_S2048x768_1_0_0_1_n_n.rhsNonContracting by decide)]
  rfl

/-- A block of 2048 rows against a weight: entry `(r, c)` is the sum over the 768 features of row `r` times column `c`. -/
theorem matmul_blockW_apply (L : FVec Ideal S2048x768 .f32) (R : FVec Ideal S768x768 .f32) (r : Fin 2048) (c : Fin 768) :
    matmul dot_S2048x768_S768x768_S2048x768_1_0_0_1_n_n none L R (constant (F := Ideal) S2048x768 .f32 0x00000000#32) (ix2 r c)
      = ∑ k : Fin 768, L (ix2 r k) * R (ix2 k c) := by
  refine (Ideal.matmul_constant_zero_apply dot_S2048x768_S768x768_S2048x768_1_0_0_1_n_n none L R (ix2 r c)).trans ?_
  rw [← Equiv.sum_comp (ValueIdx.contrEquiv1 dot_S2048x768_S768x768_S2048x768_1_0_0_1_n_n 768 rfl rfl).symm]
  refine Finset.sum_congr rfl fun k _ => ?_
  have hk := ValueIdx.contrEquiv1_symm_val dot_S2048x768_S768x768_S2048x768_1_0_0_1_n_n 768 rfl rfl k
  have el : dot_S2048x768_S768x768_S2048x768_1_0_0_1_n_n.lhsIdx (ix2 r c) ((ValueIdx.contrEquiv1 dot_S2048x768_S768x768_S2048x768_1_0_0_1_n_n 768 rfl rfl).symm k) = ix2 r k := funext fun a => Fin.ext (by
    match a with
    | ⟨0, _⟩ => exact lhs_blockW_0 _ _
    | ⟨1, _⟩ => exact (lhs_blockW_1 _ _).trans hk)
  have er : dot_S2048x768_S768x768_S2048x768_1_0_0_1_n_n.rhsIdx (ix2 r c) ((ValueIdx.contrEquiv1 dot_S2048x768_S768x768_S2048x768_1_0_0_1_n_n 768 rfl rfl).symm k) = ix2 k c := funext fun a => Fin.ext (by
    match a with
    | ⟨0, _⟩ => exact (rhs_blockW_0 _ _).trans hk
    | ⟨1, _⟩ => exact rhs_blockW_1 _ _)
  rw [el, er]

/-- Axis 0 of the left operand's index, in the contraction `tileW`. -/
theorem lhs_tileW_0 (i : S512x768.Idx) (q : dot_S512x768_S768x768_S512x768_1_0_0_1_n_n.contr.Idx) :
    (dot_S512x768_S768x768_S512x768_1_0_0_1_n_n.lhsIdx i q 0).val = (i 0).val := by
  unfold DotDims.lhsIdx
  rw [dif_neg (show ¬(0 : Fin S512x768.rank) ∈ dot_S512x768_S768x768_S512x768_1_0_0_1_n_n.lhsBatch by decide), dif_pos (show (0 : Fin S512x768.rank) ∈ dot_S512x768_S768x768_S512x768_1_0_0_1_n_n.lhsNonContracting by decide)]
  rfl
/-- Axis 1 of the left operand's index, in the contraction `tileW`. -/
theorem lhs_tileW_1 (i : S512x768.Idx) (q : dot_S512x768_S768x768_S512x768_1_0_0_1_n_n.contr.Idx) :
    (dot_S512x768_S768x768_S512x768_1_0_0_1_n_n.lhsIdx i q 1).val = (q ⟨0, by decide⟩).val :=
  dot_S512x768_S768x768_S512x768_1_0_0_1_n_n.lhsIdx_val_of_single rfl i q
/-- Axis 0 of the right operand's index, in the contraction `tileW`. -/
theorem rhs_tileW_0 (i : S512x768.Idx) (q : dot_S512x768_S768x768_S512x768_1_0_0_1_n_n.contr.Idx) :
    (dot_S512x768_S768x768_S512x768_1_0_0_1_n_n.rhsIdx i q 0).val = (q ⟨0, by decide⟩).val :=
  dot_S512x768_S768x768_S512x768_1_0_0_1_n_n.rhsIdx_val_of_single rfl i q
/-- Axis 1 of the right operand's index, in the contraction `tileW`. -/
theorem rhs_tileW_1 (i : S512x768.Idx) (q : dot_S512x768_S768x768_S512x768_1_0_0_1_n_n.contr.Idx) :
    (dot_S512x768_S768x768_S512x768_1_0_0_1_n_n.rhsIdx i q 1).val = (i 1).val := by
  unfold DotDims.rhsIdx
  rw [dif_neg (show ¬(1 : Fin S768x768.rank) ∈ dot_S512x768_S768x768_S512x768_1_0_0_1_n_n.rhsBatch by decide), dif_pos (show (1 : Fin S768x768.rank) ∈ dot_S512x768_S768x768_S512x768_1_0_0_1_n_n.rhsNonContracting by decide)]
  rfl

/-- A tile of 512 rows against a weight: entry `(r, c)` is the sum over the 768 features of row `r` times column `c`. -/
theorem matmul_tileW_apply (L : FVec Ideal S512x768 .f32) (R : FVec Ideal S768x768 .f32) (r : Fin 512) (c : Fin 768) :
    matmul dot_S512x768_S768x768_S512x768_1_0_0_1_n_n none L R (constant (F := Ideal) S512x768 .f32 0x00000000#32) (ix2 r c)
      = ∑ k : Fin 768, L (ix2 r k) * R (ix2 k c) := by
  refine (Ideal.matmul_constant_zero_apply dot_S512x768_S768x768_S512x768_1_0_0_1_n_n none L R (ix2 r c)).trans ?_
  rw [← Equiv.sum_comp (ValueIdx.contrEquiv1 dot_S512x768_S768x768_S512x768_1_0_0_1_n_n 768 rfl rfl).symm]
  refine Finset.sum_congr rfl fun k _ => ?_
  have hk := ValueIdx.contrEquiv1_symm_val dot_S512x768_S768x768_S512x768_1_0_0_1_n_n 768 rfl rfl k
  have el : dot_S512x768_S768x768_S512x768_1_0_0_1_n_n.lhsIdx (ix2 r c) ((ValueIdx.contrEquiv1 dot_S512x768_S768x768_S512x768_1_0_0_1_n_n 768 rfl rfl).symm k) = ix2 r k := funext fun a => Fin.ext (by
    match a with
    | ⟨0, _⟩ => exact lhs_tileW_0 _ _
    | ⟨1, _⟩ => exact (lhs_tileW_1 _ _).trans hk)
  have er : dot_S512x768_S768x768_S512x768_1_0_0_1_n_n.rhsIdx (ix2 r c) ((ValueIdx.contrEquiv1 dot_S512x768_S768x768_S512x768_1_0_0_1_n_n 768 rfl rfl).symm k) = ix2 k c := funext fun a => Fin.ext (by
    match a with
    | ⟨0, _⟩ => exact (rhs_tileW_0 _ _).trans hk
    | ⟨1, _⟩ => exact rhs_tileW_1 _ _)
  rw [el, er]

/-- Axis 0 of the left operand's index, in the contraction `scores`. -/
theorem lhs_scores_0 (i : S512x2048.Idx) (q : dot_S512x768_S2048x768_S512x2048_1_1_0_0_n_n.contr.Idx) :
    (dot_S512x768_S2048x768_S512x2048_1_1_0_0_n_n.lhsIdx i q 0).val = (i 0).val := by
  unfold DotDims.lhsIdx
  rw [dif_neg (show ¬(0 : Fin S512x768.rank) ∈ dot_S512x768_S2048x768_S512x2048_1_1_0_0_n_n.lhsBatch by decide), dif_pos (show (0 : Fin S512x768.rank) ∈ dot_S512x768_S2048x768_S512x2048_1_1_0_0_n_n.lhsNonContracting by decide)]
  rfl
/-- Axis 1 of the left operand's index, in the contraction `scores`. -/
theorem lhs_scores_1 (i : S512x2048.Idx) (q : dot_S512x768_S2048x768_S512x2048_1_1_0_0_n_n.contr.Idx) :
    (dot_S512x768_S2048x768_S512x2048_1_1_0_0_n_n.lhsIdx i q 1).val = (q ⟨0, by decide⟩).val :=
  dot_S512x768_S2048x768_S512x2048_1_1_0_0_n_n.lhsIdx_val_of_single rfl i q
/-- Axis 0 of the right operand's index, in the contraction `scores`. -/
theorem rhs_scores_0 (i : S512x2048.Idx) (q : dot_S512x768_S2048x768_S512x2048_1_1_0_0_n_n.contr.Idx) :
    (dot_S512x768_S2048x768_S512x2048_1_1_0_0_n_n.rhsIdx i q 0).val = (i 1).val := by
  unfold DotDims.rhsIdx
  rw [dif_neg (show ¬(0 : Fin S2048x768.rank) ∈ dot_S512x768_S2048x768_S512x2048_1_1_0_0_n_n.rhsBatch by decide), dif_pos (show (0 : Fin S2048x768.rank) ∈ dot_S512x768_S2048x768_S512x2048_1_1_0_0_n_n.rhsNonContracting by decide)]
  rfl
/-- Axis 1 of the right operand's index, in the contraction `scores`. -/
theorem rhs_scores_1 (i : S512x2048.Idx) (q : dot_S512x768_S2048x768_S512x2048_1_1_0_0_n_n.contr.Idx) :
    (dot_S512x768_S2048x768_S512x2048_1_1_0_0_n_n.rhsIdx i q 1).val = (q ⟨0, by decide⟩).val :=
  dot_S512x768_S2048x768_S512x2048_1_1_0_0_n_n.rhsIdx_val_of_single rfl i q

/-- Queries against keys, both contracted along their feature axis: entry `(r, c)` is the sum over the 768 features of query row `r` times key row `c`. -/
theorem matmul_scores_apply (L : FVec Ideal S512x768 .f32) (R : FVec Ideal S2048x768 .f32) (r : Fin 512) (c : Fin 2048) :
    matmul dot_S512x768_S2048x768_S512x2048_1_1_0_0_n_n none L R (constant (F := Ideal) S512x2048 .f32 0x00000000#32) (ix2 r c)
      = ∑ k : Fin 768, L (ix2 r k) * R (ix2 c k) := by
  refine (Ideal.matmul_constant_zero_apply dot_S512x768_S2048x768_S512x2048_1_1_0_0_n_n none L R (ix2 r c)).trans ?_
  rw [← Equiv.sum_comp (ValueIdx.contrEquiv1 dot_S512x768_S2048x768_S512x2048_1_1_0_0_n_n 768 rfl rfl).symm]
  refine Finset.sum_congr rfl fun k _ => ?_
  have hk := ValueIdx.contrEquiv1_symm_val dot_S512x768_S2048x768_S512x2048_1_1_0_0_n_n 768 rfl rfl k
  have el : dot_S512x768_S2048x768_S512x2048_1_1_0_0_n_n.lhsIdx (ix2 r c) ((ValueIdx.contrEquiv1 dot_S512x768_S2048x768_S512x2048_1_1_0_0_n_n 768 rfl rfl).symm k) = ix2 r k := funext fun a => Fin.ext (by
    match a with
    | ⟨0, _⟩ => exact lhs_scores_0 _ _
    | ⟨1, _⟩ => exact (lhs_scores_1 _ _).trans hk)
  have er : dot_S512x768_S2048x768_S512x2048_1_1_0_0_n_n.rhsIdx (ix2 r c) ((ValueIdx.contrEquiv1 dot_S512x768_S2048x768_S512x2048_1_1_0_0_n_n 768 rfl rfl).symm k) = ix2 c k := funext fun a => Fin.ext (by
    match a with
    | ⟨0, _⟩ => exact rhs_scores_0 _ _
    | ⟨1, _⟩ => exact (rhs_scores_1 _ _).trans hk)
  rw [el, er]

/-- Axis 0 of the left operand's index, in the contraction `values`. -/
theorem lhs_values_0 (i : S512x768.Idx) (q : dot_S512x2048_S2048x768_S512x768_1_0_0_1_n_n.contr.Idx) :
    (dot_S512x2048_S2048x768_S512x768_1_0_0_1_n_n.lhsIdx i q 0).val = (i 0).val := by
  unfold DotDims.lhsIdx
  rw [dif_neg (show ¬(0 : Fin S512x2048.rank) ∈ dot_S512x2048_S2048x768_S512x768_1_0_0_1_n_n.lhsBatch by decide), dif_pos (show (0 : Fin S512x2048.rank) ∈ dot_S512x2048_S2048x768_S512x768_1_0_0_1_n_n.lhsNonContracting by decide)]
  rfl
/-- Axis 1 of the left operand's index, in the contraction `values`. -/
theorem lhs_values_1 (i : S512x768.Idx) (q : dot_S512x2048_S2048x768_S512x768_1_0_0_1_n_n.contr.Idx) :
    (dot_S512x2048_S2048x768_S512x768_1_0_0_1_n_n.lhsIdx i q 1).val = (q ⟨0, by decide⟩).val :=
  dot_S512x2048_S2048x768_S512x768_1_0_0_1_n_n.lhsIdx_val_of_single rfl i q
/-- Axis 0 of the right operand's index, in the contraction `values`. -/
theorem rhs_values_0 (i : S512x768.Idx) (q : dot_S512x2048_S2048x768_S512x768_1_0_0_1_n_n.contr.Idx) :
    (dot_S512x2048_S2048x768_S512x768_1_0_0_1_n_n.rhsIdx i q 0).val = (q ⟨0, by decide⟩).val :=
  dot_S512x2048_S2048x768_S512x768_1_0_0_1_n_n.rhsIdx_val_of_single rfl i q
/-- Axis 1 of the right operand's index, in the contraction `values`. -/
theorem rhs_values_1 (i : S512x768.Idx) (q : dot_S512x2048_S2048x768_S512x768_1_0_0_1_n_n.contr.Idx) :
    (dot_S512x2048_S2048x768_S512x768_1_0_0_1_n_n.rhsIdx i q 1).val = (i 1).val := by
  unfold DotDims.rhsIdx
  rw [dif_neg (show ¬(1 : Fin S2048x768.rank) ∈ dot_S512x2048_S2048x768_S512x768_1_0_0_1_n_n.rhsBatch by decide), dif_pos (show (1 : Fin S2048x768.rank) ∈ dot_S512x2048_S2048x768_S512x768_1_0_0_1_n_n.rhsNonContracting by decide)]
  rfl

/-- Weights against the value table: entry `(r, c)` is the sum over the 2048 positions of the weight at `(r, k)` times the value at `(k, c)`. -/
theorem matmul_values_apply (L : FVec Ideal S512x2048 .bf16) (R : FVec Ideal S2048x768 .bf16) (r : Fin 512) (c : Fin 768) :
    matmul dot_S512x2048_S2048x768_S512x768_1_0_0_1_n_n none L R (constant (F := Ideal) S512x768 .f32 0x00000000#32) (ix2 r c)
      = ∑ k : Fin 2048, L (ix2 r k) * R (ix2 k c) := by
  refine (Ideal.matmul_constant_zero_apply dot_S512x2048_S2048x768_S512x768_1_0_0_1_n_n none L R (ix2 r c)).trans ?_
  rw [← Equiv.sum_comp (ValueIdx.contrEquiv1 dot_S512x2048_S2048x768_S512x768_1_0_0_1_n_n 2048 rfl rfl).symm]
  refine Finset.sum_congr rfl fun k _ => ?_
  have hk := ValueIdx.contrEquiv1_symm_val dot_S512x2048_S2048x768_S512x768_1_0_0_1_n_n 2048 rfl rfl k
  have el : dot_S512x2048_S2048x768_S512x768_1_0_0_1_n_n.lhsIdx (ix2 r c) ((ValueIdx.contrEquiv1 dot_S512x2048_S2048x768_S512x768_1_0_0_1_n_n 2048 rfl rfl).symm k) = ix2 r k := funext fun a => Fin.ext (by
    match a with
    | ⟨0, _⟩ => exact lhs_values_0 _ _
    | ⟨1, _⟩ => exact (lhs_values_1 _ _).trans hk)
  have er : dot_S512x2048_S2048x768_S512x768_1_0_0_1_n_n.rhsIdx (ix2 r c) ((ValueIdx.contrEquiv1 dot_S512x2048_S2048x768_S512x768_1_0_0_1_n_n 2048 rfl rfl).symm k) = ix2 k c := funext fun a => Fin.ext (by
    match a with
    | ⟨0, _⟩ => exact (rhs_values_0 _ _).trans hk
    | ⟨1, _⟩ => exact rhs_values_1 _ _)
  rw [el, er]

/-! ## The two row reductions -/

/-- The row maximum: the fold of `max` over the row's 2048 entries from the value of the starting word. -/
theorem rowmax_apply (src : FVec Ideal S512x2048 .f32) (h : S512x2048.Reduces [1] S512) (hφ : FKind.Formats .f32)
    (hacc : (0xFF800000#32 : BitVec 32) = FKind.maximumf.neutral .f32 hφ) (r : Fin 512) :
    multiReduction (F := Ideal) .maximumf [1] S512 src 0xFF800000#32 h hφ hacc (ix1 r)
      = (Finset.univ : Finset (Fin 2048)).fold max negInf (fun t => src (ix2 r t)) := by
  refine (Ideal.multiReduction_maximumf_single src _ h hφ hacc (ix1 r)).trans ?_
  have e : (src ∘ h.lift (ix1 r)) = fun t : Fin 2048 => src (ix2 r t) :=
    funext fun t => congrArg src (funext fun a => Fin.ext (by
      match a with
      | ⟨0, _⟩ => rfl
      | ⟨1, _⟩ => rfl))
  exact congrArg (fun f : Fin 2048 → EReal => (Finset.univ : Finset (Fin 2048)).fold max negInf f) e

/-- The row sum over the row's 2048 entries. -/
theorem rowsum_apply (src : FVec Ideal S512x2048 .f32) (h : S512x2048.Reduces [1] S512) (hφ : FKind.Formats .f32)
    (hacc : (0x00000000#32 : BitVec 32) = FKind.add.neutral .f32 hφ) (r : Fin 512) :
    multiReduction (F := Ideal) .add [1] S512 src 0x00000000#32 h hφ hacc (ix1 r) = ∑ t : Fin 2048, src (ix2 r t) := by
  refine (Ideal.multiReduction_add_single src _ h hφ hacc (ix1 r)).trans ?_
  exact Finset.sum_congr rfl fun t _ => congrArg src (funext fun a => Fin.ext (by
    match a with
    | ⟨0, _⟩ => rfl
    | ⟨1, _⟩ => rfl))

/-! ## The key and value tables -/

/-- The block with its unit axis dropped. -/
theorem block_cast_apply (xb : Vec Ideal S1x2048x768 .f32) (s : Fin 2048) (d : Fin 768) :
    k0_pay1 (F := Ideal) xb (ix2 s d) = xb (ix3 (0 : Fin 1) s d) :=
  shapeCast_1ab_ab_apply xb _ s d

/-- The bias as one row, repeated down the rows. -/
theorem bias_apply {a : ℕ} (b : FVec Ideal S768 .f32) (h1 : S768.ShapeCasts S1x768) (h2 : S1x768.Broadcasts ⟨2, ![a, 768]⟩)
    (p : Fin a) (c : Fin 768) :
    broadcastTo ⟨2, ![a, 768]⟩ (shapeCast S1x768 b h1) h2 (ix2 p c) = b (ix1 c) :=
  (broadcastTo_1b_ab_apply _ h2 p c).trans (shapeCast_a_1a_apply b h1 0 c)

/-- The block's rows against a weight, plus the bias: the dense projection. -/
theorem block_dense_apply (xb : Vec Ideal S1x2048x768 .f32) (W : FVec Ideal S768x768 .f32) (b : FVec Ideal S768 .f32)
    (h1 : S768.ShapeCasts S1x768) (h2 : S1x768.Broadcasts S2048x768) (s : Fin 2048) (e : Fin 768) :
    addf (matmul dot_S2048x768_S768x768_S2048x768_1_0_0_1_n_n none (k0_pay1 (F := Ideal) xb) W (constant (F := Ideal) S2048x768 .f32 0x00000000#32))
        (broadcastTo S2048x768 (shapeCast S1x768 b h1) h2) (ix2 s e)
      = blockProj xb W b s e := by
  show _ + _ = _
  unfold blockProj
  refine congrArg₂ (· + ·) ?_ (bias_apply b h1 h2 s e)
  refine (matmul_blockW_apply _ W s e).trans ?_
  exact Finset.sum_congr rfl fun d _ => congrArg (· * W (ix2 d e)) (block_cast_apply xb s d)

/-- The key table the body stores is the block's projection. -/
theorem keys_apply (xb : Vec Ideal S1x2048x768 .f32) (W : Vec Ideal S768x768 .f32) (b : Vec Ideal S768 .f32) (s : Fin 2048) (e : Fin 768) :
    k0_pay2 (F := Ideal) xb W b (ix2 s e) = blockProj xb W b s e := by
  unfold k0_pay2
  refine (congrFun (shapeCast_self _ _) (ix2 s e)).trans ?_
  exact block_dense_apply xb W b _ _ s e

/-- The value table the body stores is the block's projection (the narrowing to bf16 is the identity on extended reals). -/
theorem values_apply (xb : Vec Ideal S1x2048x768 .f32) (W : Vec Ideal S768x768 .f32) (b : Vec Ideal S768 .f32) (s : Fin 2048) (e : Fin 768) :
    k0_pay3 (F := Ideal) xb W b (ix2 s e) = blockProj xb W b s e := by
  unfold k0_pay3
  refine (congrFun (shapeCast_self _ _) (ix2 s e)).trans ?_
  exact block_dense_apply xb W b _ _ s e

/-! ## The output tile -/

/-- A column `[512]` set beside itself 2048 times: every entry of row `r` reads the column at `r`. -/
theorem column_apply (v : FVec Ideal S512 .f32) (hC : S512.ShapeCasts S512x1) (hB : S512x1.Broadcasts S512x2048)
    (r : Fin 512) (t : Fin 2048) :
    broadcastTo S512x2048 (shapeCast S512x1 v hC) hB (ix2 r t) = v (ix1 r) :=
  (broadcastTo_a1_ab_apply _ hB r t).trans (shapeCast_a_a1_apply v hC r 0)

/-- A table of scores shifted by a column that holds each row's maximum, exponentiated. -/
theorem shifted_exp_apply (S : FVec Ideal S512x2048 .f32) (m : FVec Ideal S512 .f32) (hC : S512.ShapeCasts S512x1)
    (hB : S512x1.Broadcasts S512x2048) (r : Fin 512) (t : Fin 2048)
    (hm : m (ix1 r) = rowMax fun t => S (ix2 r t)) :
    exp (subf S (broadcastTo S512x2048 (shapeCast S512x1 m hC) hB)) (ix2 r t) = expo (fun t => S (ix2 r t)) t := by
  show Ideal.exp (S (ix2 r t) - broadcastTo S512x2048 (shapeCast S512x1 m hC) hB (ix2 r t)) = _
  rw [column_apply, hm]
  rfl

/-- A table divided by a column set beside itself. -/
theorem div_column_apply (E : FVec Ideal S512x2048 .f32) (z : FVec Ideal S512 .f32) (hC : S512.ShapeCasts S512x1)
    (hB : S512x1.Broadcasts S512x2048) (r : Fin 512) (t : Fin 2048) :
    divf E (broadcastTo S512x2048 (shapeCast S512x1 z hC) hB) (ix2 r t) = Ideal.div (E (ix2 r t)) (z (ix1 r)) := by
  show Ideal.div (E (ix2 r t)) (broadcastTo S512x2048 (shapeCast S512x1 z hC) hB (ix2 r t)) = _
  rw [column_apply]

/-- The softmax of a table of scores, row by row: the weights of row `r`. -/
theorem softmax_apply (S : FVec Ideal S512x2048 .f32) (hR : S512x2048.Reduces [1] S512) (hC : S512.ShapeCasts S512x1)
    (hB : S512x1.Broadcasts S512x2048) (hφ₁ hφ₂ : FKind.Formats .f32)
    (hmax : (0xFF800000#32 : BitVec 32) = FKind.maximumf.neutral .f32 hφ₁)
    (hadd : (0x00000000#32 : BitVec 32) = FKind.add.neutral .f32 hφ₂) (r : Fin 512) (t : Fin 2048) :
    divf (exp (subf S (broadcastTo S512x2048 (shapeCast S512x1
            (multiReduction (F := Ideal) .maximumf [1] S512 S 0xFF800000#32 hR hφ₁ hmax) hC) hB)))
        (broadcastTo S512x2048 (shapeCast S512x1
          (multiReduction (F := Ideal) .add [1] S512
            (exp (subf S (broadcastTo S512x2048 (shapeCast S512x1
              (multiReduction (F := Ideal) .maximumf [1] S512 S 0xFF800000#32 hR hφ₁ hmax) hC) hB)))
            0x00000000#32 hR hφ₂ hadd) hC) hB) (ix2 r t)
      = weight (fun t => S (ix2 r t)) t := by
  have hm : multiReduction (F := Ideal) .maximumf [1] S512 S 0xFF800000#32 hR hφ₁ hmax (ix1 r) = rowMax fun t => S (ix2 r t) :=
    rowmax_apply S hR hφ₁ hmax r
  refine (div_column_apply _ _ hC hB r t).trans ?_
  unfold weight denom
  refine congrArg₂ Ideal.div (shifted_exp_apply S _ hC hB r t hm) ?_
  refine (rowsum_apply _ hR hφ₂ hadd r).trans ?_
  exact Finset.sum_congr rfl fun t' _ => shifted_exp_apply S _ hC hB r t' hm

/-- The query tile: the tile's rows against the weight, plus the bias. -/
theorem tile_dense_apply (xt : FVec Ideal S1x512x768 .f32) (W : FVec Ideal S768x768 .f32) (b : FVec Ideal S768 .f32)
    (h0 : S1x512x768.ShapeCasts S512x768) (h1 : S768.ShapeCasts S1x768) (h2 : S1x768.Broadcasts S512x768) (r : Fin 512) (e : Fin 768) :
    addf (matmul dot_S512x768_S768x768_S512x768_1_0_0_1_n_n none (shapeCast S512x768 xt h0) W (constant (F := Ideal) S512x768 .f32 0x00000000#32))
        (broadcastTo S512x768 (shapeCast S1x768 b h1) h2) (ix2 r e)
      = tileProj xt W b r e := by
  show _ + _ = _
  unfold tileProj
  refine congrArg₂ (· + ·) ?_ (bias_apply b h1 h2 r e)
  refine (matmul_tileW_apply _ W r e).trans ?_
  exact Finset.sum_congr rfl fun d _ => congrArg (· * W (ix2 d e)) (shapeCast_1ab_ab_apply xt h0 r d)

/-- The scores of a query tile against a key table: row `r` against key `t`. -/
theorem scores_apply (Q : FVec Ideal S512x768 .f32) (K : FVec Ideal S2048x768 .f32) (r : Fin 512) (t : Fin 2048) :
    matmul dot_S512x768_S2048x768_S512x2048_1_1_0_0_n_n none Q K (constant (F := Ideal) S512x2048 .f32 0x00000000#32) (ix2 r t)
      = rowScore (fun e => Q (ix2 r e)) (fun t e => K (ix2 t e)) t :=
  matmul_scores_apply Q K r t

/-- The output tile: row `r`'s query projection attends to the key table `K` and the value table `Vv`, plus the row itself. -/
theorem tile_apply (xt : Vec Ideal S1x512x768 .f32) (W : Vec Ideal S768x768 .f32) (b : Vec Ideal S768 .f32)
    (K : Vec Ideal S2048x768 .f32) (Vv : Vec Ideal S2048x768 .bf16) (u : Fin 1) (r : Fin 512) (d : Fin 768) :
    k0_pay4 (F := Ideal) xt W b K Vv (ix3 u r d)
      = attend (tileProj xt W b r) (fun t e => K (ix2 t e)) (fun t e => Vv (ix2 t e)) d + xt (ix3 (0 : Fin 1) r d) := by
  unfold k0_pay4
  refine (shapeCast_ab_1ab_apply _ _ u r d).trans ?_
  show _ + _ = _
  refine congrArg₂ (· + ·) ?_ (shapeCast_1ab_ab_apply xt _ r d)
  refine (matmul_values_apply _ Vv r d).trans ?_
  unfold attend
  refine Finset.sum_congr rfl fun t _ => congrArg (· * Vv (ix2 t d)) ?_
  show divf (F := Ideal) (φ := .f32) _ _ (ix2 r t) = _
  refine (softmax_apply _ _ _ _ _ _ _ _ r t).trans ?_
  refine congrArg (fun sc => weight sc t) (funext fun t' => ?_)
  refine (scores_apply _ K r t').trans ?_
  exact congrArg (fun q => rowScore q (fun t e => K (ix2 t e)) t') (funext fun e => tile_dense_apply xt W b _ _ _ r e)

end Cert.KernelPayloads

end
-- ==== Proof.KernelPoints.lean ====
/-
  What the kernel's run holds point by point, over the extended reals.

  The two scratch tables are written at the first query tile of a batch and only read at the other three, so after any
  point `n` they hold the key and value projections of batch `n / 4`: by induction on the point (a first tile stores them,
  any other tile keeps what the point before left, and `(n + 1) / 4 = n / 4` unless `n + 1` starts a batch). With that, the
  output tile of point `t` is, row by row, the attention result at batch `t / 4`, position `512 * (t % 4) + r`.
-/
import proofs.«423413_j37744172597494_3_alg».proof.Proof.KernelBlocks
import proofs.«423413_j37744172597494_3_alg».proof.Proof.KernelPayloads
import proofs.«423413_j37744172597494_3_alg».proof.Proof.Attention

set_option maxRecDepth 16384

noncomputable section

open scoped BigOperators

namespace Cert.KernelPoints

open Cert.KernelIdeal Cert.KernelIdeal.Gen Cert.KernelPieces Cert.KernelBlocks Cert.KernelPayloads Cert.Attention
open Idealize.ShloMosaic Idealize.ShloMosaic.TcCoe Idealize.SL.Sem Idealize.ShloMosaic.ValueIdx

variable (m : (ℓ : Loc nD τ sig) → Buf (Elt Ideal) ℓ)

/-- The key projection of batch `n` as a table of 2048 rows, and the value projection likewise. -/
def keyTable (c : Dev nD) (n : Fin 8) : Vec Ideal S2048x768 .f32 :=
  fun j => proj (xArr m c) (wkArr m c) (bkArr m c) n (j 0) (j 1)
def valTable (c : Dev nD) (n : Fin 8) : Vec Ideal S2048x768 .bf16 :=
  fun j => proj (xArr m c) (wvArr m c) (bvArr m c) n (j 0) (j 1)

/-- What a first tile stores into the key table is the key projection of the point's batch. -/
theorem keys_at (c : Dev nD) (t : Fin cfg0.N) :
    k0_pay2 (xBlk m c t) (wkBlk m c t) (bkBlk m c t) = keyTable m c (batchOf t) := by
  funext j
  obtain ⟨s, e, rfl⟩ : ∃ (s : Fin 2048) (e : Fin 768), j = ix2 s e := ⟨j 0, j 1, eq_ix2 j⟩
  refine (keys_apply (xBlk m c t) (wkBlk m c t) (bkBlk m c t) s e).trans ?_
  unfold blockProj keyTable proj
  rw [wkBlk_eq, bkBlk_eq]
  refine congrArg (· + _) (Finset.sum_congr rfl fun d _ => ?_)
  rw [xBlk_apply]

/-- What a first tile stores into the value table is the value projection of the point's batch. -/
theorem values_at (c : Dev nD) (t : Fin cfg0.N) :
    k0_pay3 (xBlk m c t) (wvBlk m c t) (bvBlk m c t) = valTable m c (batchOf t) := by
  funext j
  obtain ⟨s, e, rfl⟩ : ∃ (s : Fin 2048) (e : Fin 768), j = ix2 s e := ⟨j 0, j 1, eq_ix2 j⟩
  refine (values_apply (xBlk m c t) (wvBlk m c t) (bvBlk m c t) s e).trans ?_
  unfold blockProj valTable proj
  rw [wvBlk_eq, bvBlk_eq]
  refine congrArg (· + _) (Finset.sum_congr rfl fun d _ => ?_)
  rw [xBlk_apply]

/-- THE TABLES AFTER EACH POINT: the key and value projections of the point's batch. -/
theorem scratch_inv (c : Dev nD) : ∀ (n : ℕ) (h : n < cfg0.N),
    (outsAt0 m c n h).2.1 = keyTable m c (batchOf ⟨n, h⟩) ∧ (outsAt0 m c n h).2.2 = valTable m c (batchOf ⟨n, h⟩)
  | 0, h => by
    rw [outsAt0_A m c ⟨0, h⟩ rfl]
    dsimp only
    exact ⟨(keys_piece c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩)).trans (keys_at m c ⟨0, h⟩),
      (values_piece c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩)).trans (values_at m c ⟨0, h⟩)⟩
  | n + 1, h => by
    by_cases h0 : (n + 1) % 4 = 0
    · rw [outsAt0_A m c ⟨n + 1, h⟩ h0]
      dsimp only
      exact ⟨(keys_piece c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩)).trans (keys_at m c ⟨n + 1, h⟩),
        (values_piece c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩)).trans (values_at m c ⟨n + 1, h⟩)⟩
    · rw [outsAt0_B m c ⟨n + 1, h⟩ h0]
      dsimp only
      unfold sout0_B_0 sout0_B_1
      have ih := scratch_inv c n (Nat.lt_of_succ_lt h)
      have eb : batchOf ⟨n + 1, h⟩ = batchOf ⟨n, Nat.lt_of_succ_lt h⟩ := Fin.ext (by show (n + 1) / 4 = n / 4; omega)
      rw [eb]
      exact ih

/-- One output tile from the tables of its batch: row `r` is the attention result at the row's position in the batch. -/
theorem tile_value (c : Dev nD) (t : Fin cfg0.N) (u : Fin 1) (r : Fin 512) (d : Fin 768) :
    k0_pay4 (tile (grid0.coords t) (xBlk m c t)) (wqBlk m c t) (bqBlk m c t) (keyTable m c (batchOf t)) (valTable m c (batchOf t)) (ix3 u r d)
      = out (xArr m c) (wqArr m c) (bqArr m c) (wkArr m c) (bkArr m c) (wvArr m c) (bvArr m c) (batchOf t) (rowOf (tileOf t) r) d := by
  refine (Cert.KernelPayloads.tile_apply (tile (grid0.coords t) (xBlk m c t)) (wqBlk m c t) (bqBlk m c t) (keyTable m c (batchOf t)) (valTable m c (batchOf t)) u r d).trans ?_
  have hq : tileProj (tile (grid0.coords t) (xBlk m c t)) (wqBlk m c t) (bqBlk m c t) r
      = proj (xArr m c) (wqArr m c) (bqArr m c) (batchOf t) (rowOf (tileOf t) r) := by
    funext e
    unfold tileProj proj
    rw [wqBlk_eq, bqBlk_eq]
    refine congrArg (· + _) (Finset.sum_congr rfl fun d' _ => ?_)
    rw [tile_row, xBlk_apply]
  rw [hq, tile_row, xBlk_apply]
  rfl

/-- THE OUTPUT TILE AT POINT `t`, row by row: the attention result at batch `t / 4`, position `512 * (t % 4) + r`. -/
theorem out_at (c : Dev nD) (t : Fin cfg0.N) (u : Fin 1) (r : Fin 512) (d : Fin 768) :
    (outsAt0 m c t.val t.isLt).1 (ix3 u r d) = out (xArr m c) (wqArr m c) (bqArr m c) (wkArr m c) (bkArr m c) (wvArr m c) (bvArr m c) (batchOf t) (rowOf (tileOf t) r) d := by
  by_cases h0 : t.val % 4 = 0
  · rw [outsAt0_A m c t h0]
    dsimp only
    refine (congrFun (tileA_piece c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)) (ix3 u r d)).trans ?_
    rw [show k0_pay2 (iblk m c 0 t) (iblk m c 3 t) (iblk m c 4 t) = keyTable m c (batchOf t) from keys_at m c t,
      show k0_pay3 (iblk m c 0 t) (iblk m c 5 t) (iblk m c 6 t) = valTable m c (batchOf t) from values_at m c t]
    exact tile_value m c t u r d
  · rw [outsAt0_B m c t h0]
    dsimp only
    refine (congrFun (tileB_piece c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) _ _) (ix3 u r d)).trans ?_
    have hN := lt_of_lt_of_eq t.isLt N_eq
    obtain ⟨ik, iv⟩ := scratch_inv m c (t.val - 1) (Nat.lt_of_le_of_lt (Nat.sub_le _ _) t.isLt)
    have eb : batchOf ⟨t.val - 1, Nat.lt_of_le_of_lt (Nat.sub_le _ _) t.isLt⟩ = batchOf t :=
      Fin.ext (by show (t.val - 1) / 4 = t.val / 4; omega)
    rw [ik, iv, eb]
    exact tile_value m c t u r d

end Cert.KernelPoints

end
-- ==== Proof.KernelResult.lean ====
/-
  From the output tiles to the whole result array, and the kernel's run restated.

  Point `t` writes back the block of rows `512 * (t % 4) … 512 * (t % 4) + 511` of batch `t / 4`; by the points module that
  tile is the attention result read through that block. Every index of the [8, 2048, 768] array lies in the block of the
  point `4 * batch + row / 512`, so after the run the result array is the attention function of the argument arrays.
-/
import proofs.«423413_j37744172597494_3_alg».proof.Proof.KernelPoints
import proofs.«423413_j37744172597494_3_alg».proof.Proof.Gen.KernelIdeal.Value

set_option maxRecDepth 16384

noncomputable section

namespace Cert.KernelResult

open Cert.KernelIdeal Cert.KernelIdeal.Gen Cert.KernelBlocks Cert.KernelPoints Cert.Attention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The attention function of the argument arrays as the region finds them: what the result array ends holding. -/
def final (c : Dev nD) : Buf (Elt Ideal) ((c : Thread nD τ).loc main_v0) :=
  result (xArr m c) (wqArr m c) (bqArr m c) (wkArr m c) (bkArr m c) (wvArr m c) (bvArr m c)

/-- WHAT POINT `t` WRITES BACK is its block of the attention result. -/
theorem flushed_eq (c : Dev nD) (t : Fin cfg0.N) :
    (dats m 0 c).flushed 7 t = ((cfg0.win 7).blk t).view.read (Elt Ideal) (final m c) := by
  rw [Cert.KernelIdeal.Value.flushed7]
  obtain ⟨-, -, -, -, -, -, -, -, -, -, -, -, e0, e1, e2⟩ := idx_facts t
  funext j
  obtain ⟨u, r, d, rfl⟩ : ∃ (u : Fin 1) (r : Fin 512) (d : Fin 768), j = ix3 u r d := ⟨j 0, j 1, j 2, eq_ix3 j⟩
  show (outsAt0 m c t.val t.isLt).1 (ix3 u r d) = final m c (((cfg0.win 7).blk t).view.emb (ix3 u r d))
  rw [out_at m c t u r d]
  have he : ((cfg0.win 7).blk t).view.emb (ix3 u r d) = ix3 (batchOf t) (rowOf (tileOf t) r) d := by
    funext a; apply Fin.ext
    match a with
    | ⟨0, _⟩ => show win0_7.index t (0 : Fin 3) * 1 + 1 * u.val = t.val / 4; have := u.isLt; omega
    | ⟨1, _⟩ => show win0_7.index t (1 : Fin 3) * 512 + 1 * r.val = 512 * (t.val % 4) + r.val; omega
    | ⟨2, _⟩ => show win0_7.index t (2 : Fin 3) * 768 + 1 * d.val = d.val; omega
  rw [he]
  rfl

/-- An index of the array is in point `t`'s block iff each coordinate is in the block's range on its axis. -/
theorem mem_blk (t : Fin cfg0.N) (i : S8x2048x768.Idx) :
    i ∈ ((cfg0.win 7).blk t).view.set ↔ ∀ a : Fin 3, win0_7.index t a * S1x512x768.size a ≤ (i a).val ∧ (i a).val < win0_7.index t a * S1x512x768.size a + S1x512x768.size a := by
  show i ∈ ((View.whole main_v0).slice (win0_7.rect t)).set ↔ _
  rw [View.set_slice_whole, Rect.mem_set_unit]
  exact Iff.rfl

/-- Every index of the result array is in some point's block: batch `b`, row `s` belongs to point `4 * b + s / 512`. -/
theorem cover (i : S8x2048x768.Idx) : ∃ t : Fin cfg0.N, (cfg0.win 7).flush t = true ∧ i ∈ ((cfg0.win 7).blk t).view.set := by
  have h0 : (i 0).val < 8 := (i 0).isLt
  have h1 : (i 1).val < 2048 := (i 1).isLt
  have h2 : (i 2).val < 768 := (i 2).isLt
  let t : Fin cfg0.N := ⟨4 * (i 0).val + (i 1).val / 512, by rw [N_eq]; omega⟩
  obtain ⟨-, -, -, -, -, -, -, -, -, -, -, -, e0, e1, e2⟩ := idx_facts t
  have tv : t.val = 4 * (i 0).val + (i 1).val / 512 := rfl
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 768 ≤ (i 2).val ∧ (i 2).val < win0_7.index t (2 : Fin 3) * 768 + 768; omega

/-- THE RESULT ARRAY after the run is the attention function of the argument arrays. -/
theorem final_eq (c : Dev nD) : (dats m 0 c).arrAt 7 cfg0.N = final m c :=
  (dats m 0 c).arrAt_eq_of_cover 7 (final m c) (fun t _ => flushed_eq m c t) cover

/-- The kernel's run: every weakly fair execution ends with the result array at the attention function of the launch
    contents of the arguments, and the arguments unchanged. -/
theorem run : θ_run defs (onTc (τ := τ) (main (F := Ideal))) ⟨m, fun _ => 0, ρ⟩ fun r => ∀ c : Dev nD,
      r.2.mem ((c : Thread nD τ).loc main_v0) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_eq m c), (h c).2⟩) (Cert.KernelIdeal.Value.run_blocks m ρ)

end Cert.KernelResult

end
-- ==== Proof.ReferenceValue.lean ====
/-
  The reference program's result, read one operation at a time, is the attention function of its seven arguments.
-/
import proofs.«423413_j37744172597494_3_alg».proof.Proof.Gen.ReferenceIdeal.Read
import proofs.«423413_j37744172597494_3_alg».proof.Proof.Attention
import Idealize.ShloMosaic.PureOps.Reduce

noncomputable section

open scoped BigOperators

namespace Cert.ReferenceValue

open Cert.ReferenceIdeal Cert.ReferenceIdeal.Read Idealize.ShloMosaic Idealize.ShloMosaic.TcCoe Idealize.ShloMosaic.ValueIdx Cert.Attention

variable (x0 : (⟨S8x2048x768, .f32⟩ : BufTy).Contents (Elt Ideal)) (x1 : (⟨S768x768, .f32⟩ : BufTy).Contents (Elt Ideal))
  (x2 : (⟨S768, .f32⟩ : BufTy).Contents (Elt Ideal)) (x3 : (⟨S768x768, .f32⟩ : BufTy).Contents (Elt Ideal))
  (x4 : (⟨S768, .f32⟩ : BufTy).Contents (Elt Ideal)) (x5 : (⟨S768x768, .f32⟩ : BufTy).Contents (Elt Ideal))
  (x6 : (⟨S768, .f32⟩ : BufTy).Contents (Elt Ideal))

/-! ## The three dense projections -/

/-- The first projection stage at batch `n`, position `s`, feature `e`: the contraction runs over the input's feature
    axis against column `e` of the weight, and the two broadcasts of the bias read it at `e`. -/
theorem v3_at (n : Fin 8) (s : Fin 2048) (e : Fin 768) :
    val_main_v3 (F := Ideal) x0 x1 x2 (ix3 n s e) = proj x0 x1 x2 n s e := by
  rw [val_main_v3_apply, val_main_v0_apply, val_main_v2_apply, val_main_v1_apply]
  unfold proj
  refine congrArg₂ (· + ·) (Finset.sum_congr rfl fun k _ => ?_) (congrArg x2 ?_)
  · refine congrArg₂ (· * ·) (congrArg x0 ?_) (congrArg x1 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact funext fun a => Fin.ext (by match a with | ⟨0, _⟩ => rfl)

/-- The key projection is the same two operations on the key weight and bias. -/
theorem v7_at (n : Fin 8) (s : Fin 2048) (e : Fin 768) :
    val_main_v7 (F := Ideal) x0 x3 x4 (ix3 n s e) = proj x0 x3 x4 n s e := by
  show val_main_v3 (F := Ideal) x0 x3 x4 (ix3 n s e) = _
  exact v3_at x0 x3 x4 n s e

/-- So is the value projection. -/
theorem v11_at (n : Fin 8) (s : Fin 2048) (e : Fin 768) :
    val_main_v11 (F := Ideal) x0 x5 x6 (ix3 n s e) = proj x0 x5 x6 n s e := by
  show val_main_v3 (F := Ideal) x0 x5 x6 (ix3 n s e) = _
  exact v3_at x0 x5 x6 n s e

/-! ## The scores and the row maximum -/

/-- The row of scores of the query at batch `n`, position `s`, against the batch's keys. -/
def scoreRow (n : Fin 8) (s : Fin 2048) : Fin 2048 → EReal :=
  rowScore (proj x0 x1 x2 n s) (proj x0 x3 x4 n)

/-- The batched contraction at `(n, s, t)` pairs the query row of position `s` with the key row of position `t`,
    feature by feature. -/
theorem v12_at (n : Fin 8) (s t : Fin 2048) :
    val_main_v12 (F := Ideal) x0 x1 x2 x3 x4 (ix3 n s t) = scoreRow x0 x1 x2 x3 x4 n s t := by
  rw [val_main_v12_apply]
  unfold scoreRow rowScore
  refine Finset.sum_congr rfl fun k _ => ?_
  refine congrArg₂ (· * ·) ?_ ?_
  · refine Eq.trans (congrArg (val_main_v3 (F := Ideal) x0 x1 x2) ?_) (v3_at x0 x1 x2 n s k)
    exact funext fun a => Fin.ext (by match a with | ⟨0, _⟩ => rfl | ⟨1, _⟩ => rfl | ⟨2, _⟩ => rfl)
  · refine Eq.trans (congrArg (val_main_v7 (F := Ideal) x0 x3 x4) ?_) (v7_at x0 x3 x4 n t k)
    exact funext fun a => Fin.ext (by match a with | ⟨0, _⟩ => rfl | ⟨1, _⟩ => rfl | ⟨2, _⟩ => rfl)

/-- The reduction over the last axis is the fold of `max` over that axis's coordinates, started from the value of the
    -inf word: the row's maximum. -/
theorem v13_at (n : Fin 8) (s : Fin 2048) :
    val_main_v13 (F := Ideal) x0 x1 x2 x3 x4 (ix2 n s) = rowMax (scoreRow x0 x1 x2 x3 x4 n s) := by
  unfold val_main_v13
  have h : S8x2048x2048.Reduces [2] S8x2048 := by decide
  refine (Host.reduce_eq_fold_single _ _ _ _ h _ _).trans ?_
  have hf : (val_main_v12 (F := Ideal) x0 x1 x2 x3 x4 ∘ h.lift (ix2 n s)) = scoreRow x0 x1 x2 x3 x4 n s := by
    funext t
    refine Eq.trans (congrArg (val_main_v12 (F := Ideal) x0 x1 x2 x3 x4) ?_) (v12_at x0 x1 x2 x3 x4 n s t)
    exact funext fun a => Fin.ext (by match a with | ⟨0, _⟩ => rfl | ⟨1, _⟩ => rfl | ⟨2, _⟩ => rfl)
  rw [hf, val_main_cst_apply]
  rfl

/-- Taking the maximum with the -inf splat once more changes nothing: the fold already started from that value. -/
theorem v15_at (n : Fin 8) (s : Fin 2048) :
    val_main_v15 (F := Ideal) x0 x1 x2 x3 x4 (ix2 n s) = rowMax (scoreRow x0 x1 x2 x3 x4 n s) := by
  rw [val_main_v15_apply, val_main_v14_apply, val_main_cst_0_apply, v13_at]
  exact max_init_fold _ _ _

/-- The two broadcasts carry the row's maximum back to every position of the row. -/
theorem v17_at (n : Fin 8) (s t : Fin 2048) :
    val_main_v17 (F := Ideal) x0 x1 x2 x3 x4 (ix3 n s t) = rowMax (scoreRow x0 x1 x2 x3 x4 n s) := by
  rw [val_main_v17_apply, val_main_v16_apply]
  refine Eq.trans (congrArg (val_main_v15 (F := Ideal) x0 x1 x2 x3 x4) ?_) (v15_at x0 x1 x2 x3 x4 n s)
  exact funext fun a => Fin.ext (by match a with | ⟨0, _⟩ => rfl | ⟨1, _⟩ => rfl)

/-! ## The softmax of a row -/

/-- The shifted score, exponentiated. -/
theorem v19_at (n : Fin 8) (s t : Fin 2048) :
    val_main_v19 (F := Ideal) x0 x1 x2 x3 x4 (ix3 n s t) = expo (scoreRow x0 x1 x2 x3 x4 n s) t := by
  rw [val_main_v19_apply, val_main_v18_apply, v12_at, v17_at]
  rfl

/-- The row's sum starts from the zero word's value, which is zero. -/
theorem v20_at (n : Fin 8) (s : Fin 2048) :
    val_main_v20 (F := Ideal) x0 x1 x2 x3 x4 (ix2 n s) = denom (scoreRow x0 x1 x2 x3 x4 n s) := by
  rw [val_main_v20_apply, val_main_cst_1_apply, Ideal.ofBits_def, Ideal.ofBits_zero_f32, zero_add]
  unfold denom
  refine Finset.sum_congr rfl fun k _ => ?_
  refine Eq.trans (congrArg (val_main_v19 (F := Ideal) x0 x1 x2 x3 x4) ?_) (v19_at x0 x1 x2 x3 x4 n s k)
  exact funext fun a => Fin.ext (by match a with | ⟨0, _⟩ => rfl | ⟨1, _⟩ => rfl | ⟨2, _⟩ => rfl)

/-- The two broadcasts carry the row's sum back to every position of the row. -/
theorem v22_at (n : Fin 8) (s t : Fin 2048) :
    val_main_v22 (F := Ideal) x0 x1 x2 x3 x4 (ix3 n s t) = denom (scoreRow x0 x1 x2 x3 x4 n s) := by
  rw [val_main_v22_apply, val_main_v21_apply]
  refine Eq.trans (congrArg (val_main_v20 (F := Ideal) x0 x1 x2 x3 x4) ?_) (v20_at x0 x1 x2 x3 x4 n s)
  exact funext fun a => Fin.ext (by match a with | ⟨0, _⟩ => rfl | ⟨1, _⟩ => rfl)

/-- The quotient is the weight of key `t`. -/
theorem v23_at (n : Fin 8) (s t : Fin 2048) :
    val_main_v23 (F := Ideal) x0 x1 x2 x3 x4 (ix3 n s t) = weight (scoreRow x0 x1 x2 x3 x4 n s) t := by
  rw [val_main_v23_apply, v19_at, v22_at]
  rfl

/-! ## The weighted sum of the value rows, and the residual -/

/-- The second batched contraction runs over the key positions: weight times the value row's feature `d`. -/
theorem v24_at (n : Fin 8) (s : Fin 2048) (d : Fin 768) :
    val_main_v24 (F := Ideal) x0 x1 x2 x3 x4 x5 x6 (ix3 n s d)
      = attend (proj x0 x1 x2 n s) (proj x0 x3 x4 n) (proj x0 x5 x6 n) d := by
  rw [val_main_v24_apply]
  unfold attend
  refine Finset.sum_congr rfl fun k _ => ?_
  refine congrArg₂ (· * ·) ?_ ?_
  · refine Eq.trans (congrArg (val_main_v23 (F := Ideal) x0 x1 x2 x3 x4) ?_) (v23_at x0 x1 x2 x3 x4 n s k)
    exact funext fun a => Fin.ext (by match a with | ⟨0, _⟩ => rfl | ⟨1, _⟩ => rfl | ⟨2, _⟩ => rfl)
  · refine Eq.trans (congrArg (val_main_v11 (F := Ideal) x0 x5 x6) ?_) (v11_at x0 x5 x6 n k d)
    exact funext fun a => Fin.ext (by match a with | ⟨0, _⟩ => rfl | ⟨1, _⟩ => rfl | ⟨2, _⟩ => rfl)

/-- The last stage adds the input. -/
theorem v25_at (n : Fin 8) (s : Fin 2048) (d : Fin 768) :
    val_main_v25 (F := Ideal) x0 x1 x2 x3 x4 x5 x6 (ix3 n s d) = out x0 x1 x2 x3 x4 x5 x6 n s d := by
  rw [val_main_v25_apply, v24_at]
  rfl

/-- The last stage of the reference, as a function of the argument arrays, is the attention function. -/
theorem reference_eq (x0 : (⟨S8x2048x768, .f32⟩ : BufTy).Contents (Elt Ideal)) (x1 : (⟨S768x768, .f32⟩ : BufTy).Contents (Elt Ideal))
    (x2 : (⟨S768, .f32⟩ : BufTy).Contents (Elt Ideal)) (x3 : (⟨S768x768, .f32⟩ : BufTy).Contents (Elt Ideal))
    (x4 : (⟨S768, .f32⟩ : BufTy).Contents (Elt Ideal)) (x5 : (⟨S768x768, .f32⟩ : BufTy).Contents (Elt Ideal))
    (x6 : (⟨S768, .f32⟩ : BufTy).Contents (Elt Ideal)) :
    val_main_v25 (F := Ideal) x0 x1 x2 x3 x4 x5 x6 = result x0 x1 x2 x3 x4 x5 x6 := by
  funext i
  obtain ⟨n, s, d, rfl⟩ : ∃ n s d, i = ix3 n s d := ⟨i 0, i 1, i 2, eq_ix3 i⟩
  exact v25_at x0 x1 x2 x3 x4 x5 x6 n s d

end Cert.ReferenceValue

end
-- ==== Proof.lean ====
/-
  A fused self-attention kernel against its jnp reference, equal over the extended reals.

  Both programs compute, for batch `n`, position `s` and feature `d`, the sum over the key positions `t` of
  softmax_t(q[n,s] · k[n,t]) * v[n,t,d], plus x[n,s,d], where q, k and v are dense projections x·W + b of the input and the
  softmax is the usual max-shifted one (Proof/Attention.lean states it once). The kernel walks a grid of 8 batches by 4 query
  tiles: at a batch's first tile it projects the batch's keys and values into two scratch tables, and at every tile it
  projects 512 query rows, attends to the tables, adds the rows and writes the tile back. The reference does the same with
  whole-array operations. Every contraction is one sum over the same index set on both sides, a change of float format is
  the identity on extended reals, and the reference's extra maximum with -inf changes nothing, so the two results are equal
  term by term; no rearrangement of sums is needed and the inputs' finiteness is not used.

  The modules: Proof/Attention.lean (the function), Proof/ReferenceValue.lean (the reference's stages are that function),
  Proof/KernelPayloads.lean (the body's three stored values at an index), Proof/KernelPieces.lean (what each case of the
  body leaves, read back as those values), Proof/KernelBlocks.lean (where each block sits in its array),
  Proof/KernelPoints.lean (the tables after each point, by induction; the output tile at a point), Proof/KernelResult.lean
  (the 32 tiles cover the result array; the kernel's run). Below: the three frames, the idealization step (nothing was
  rewritten), and the equality of the two runs' results.
-/
import proofs.«423413_j37744172597494_3_alg».proof.Defs
import proofs.«423413_j37744172597494_3_alg».proof.Proof.Gen.Kernel
import proofs.«423413_j37744172597494_3_alg».proof.Proof.Gen.Kernel.Skeleton
import proofs.«423413_j37744172597494_3_alg».proof.Proof.Gen.Kernel.Launch
import proofs.«423413_j37744172597494_3_alg».proof.Proof.Gen.Kernel.Points
import proofs.«423413_j37744172597494_3_alg».proof.Proof.Gen.Kernel.Frame
import proofs.«423413_j37744172597494_3_alg».proof.Proof.Gen.KernelIdeal
import proofs.«423413_j37744172597494_3_alg».proof.Proof.Gen.KernelIdeal.Skeleton
import proofs.«423413_j37744172597494_3_alg».proof.Proof.Gen.KernelIdeal.Launch
import proofs.«423413_j37744172597494_3_alg».proof.Proof.Gen.KernelIdeal.Points
import proofs.«423413_j37744172597494_3_alg».proof.Proof.Gen.KernelIdeal.Frame
import proofs.«423413_j37744172597494_3_alg».proof.Proof.Gen.ReferenceIdeal
import proofs.«423413_j37744172597494_3_alg».proof.Proof.Gen.Pre_finite_inputs
import proofs.«423413_j37744172597494_3_alg».proof.Proof.Gen.KernelIdeal.Value
import proofs.«423413_j37744172597494_3_alg».proof.Proof.Gen.ReferenceIdeal.Run
import proofs.«423413_j37744172597494_3_alg».proof.Proof.Gen.ReferenceIdeal.Read
import proofs.«423413_j37744172597494_3_alg».proof.Proof.KernelResult
import proofs.«423413_j37744172597494_3_alg».proof.Proof.ReferenceValue
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the seven arguments, the kernel's result array and the reference's result are the one
    attention function of those arguments. -/
theorem algebraic : Cert.algebraic_KernelIdeal_ReferenceIdeal := by
  intro m ρ m' ρ' _ hagree
  refine ⟨fun c => Cert.KernelResult.final m c, Cert.KernelResult.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceValue.reference_eq]
  obtain ⟨a0, a1, a2, a3, a4, a5, a6⟩ := hagree c
  rw [a0, a1, a2, a3, a4, a5, a6]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
